-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 23
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .bf16⟩
  | .hbm, ⟨17, _⟩ => ⟨S1024x4096, .f32⟩
  | .hbm, ⟨18, _⟩ => ⟨S1024x4096, .bf16⟩
  | .hbm, ⟨19, _⟩ => ⟨S4096, .f32⟩
  | .hbm, ⟨20, _⟩ => ⟨S1x4096, .f32⟩
  | .hbm, ⟨21, _⟩ => ⟨S8192x1024, .f32⟩
  | .hbm, ⟨22, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.Kernel.Entry.lean ====
/-
  The LSTM cell's program up to its one kernel region. Before the region the host lays the four gate
  matrices of each projection side by side (two arrays of 1024 x 4096, rounded to bf16) and the four gate
  biases end to end (one row of 4096); none of these operations writes an argument array. Stated here:
  what every buffer of a core holds when the region is entered (the fold of those six operations over the
  launch contents), that @main is those operations followed by the region, that each of the fifteen
  argument arrays is then still as launched, what block of its array a window shows at a grid point, and
  that a run of the region that ends with every array at the contents the proof data computes leaves the
  fifteen arguments unchanged.
-/
import proofs.«141463_j6820408066632_1_alg».proof.Proof.Gen.Kernel.Launch
import proofs.«141463_j6820408066632_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The buffers when the region is entered -/

/-- Core `c`'s buffers after the six host operations: the three concatenations, the two roundings to bf16
    and the reshape, applied in order to the launch contents. -/
abbrev V (c : Dev nD) (b : Ref sig .tc) : Buf (Elt F) ((c : Thread nD τ).loc b) := StableHlo.after hostOps0 (fun b => m (c, b)) b

/-- Every host operation writes a buffer of its own: none allocates. -/
theorem hostOps0_fresh : (hostOps0 : List (HloOp τ sig (Elt F))).Forall fun op => op.fresh = ∅ := by
  simp only [List.Forall]; repeat' constructor

/-- @main is the six host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference that is the result of none of the six operations (they write `main_v0` … `main_v5`) holds
    at region entry what it held at launch. -/
local macro "kept_by_prefix " r:term : tactic =>
  `(tactic| exact StableHlo.after_of_forall_not_mem (b := Proc.devRef .tc $r) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide))))

theorem V_main_arg0 (c : Dev nD) : V m c main_arg0 = m ((c : Thread nD τ).loc main_arg0) := by
  kept_by_prefix main_arg0
theorem V_main_arg1 (c : Dev nD) : V m c main_arg1 = m ((c : Thread nD τ).loc main_arg1) := by
  kept_by_prefix main_arg1
theorem V_main_arg2 (c : Dev nD) : V m c main_arg2 = m ((c : Thread nD τ).loc main_arg2) := by
  kept_by_prefix main_arg2
theorem V_main_arg3 (c : Dev nD) : V m c main_arg3 = m ((c : Thread nD τ).loc main_arg3) := by
  kept_by_prefix main_arg3
theorem V_main_arg4 (c : Dev nD) : V m c main_arg4 = m ((c : Thread nD τ).loc main_arg4) := by
  kept_by_prefix main_arg4
theorem V_main_arg5 (c : Dev nD) : V m c main_arg5 = m ((c : Thread nD τ).loc main_arg5) := by
  kept_by_prefix main_arg5
theorem V_main_arg6 (c : Dev nD) : V m c main_arg6 = m ((c : Thread nD τ).loc main_arg6) := by
  kept_by_prefix main_arg6
theorem V_main_arg7 (c : Dev nD) : V m c main_arg7 = m ((c : Thread nD τ).loc main_arg7) := by
  kept_by_prefix main_arg7
theorem V_main_arg8 (c : Dev nD) : V m c main_arg8 = m ((c : Thread nD τ).loc main_arg8) := by
  kept_by_prefix main_arg8
theorem V_main_arg9 (c : Dev nD) : V m c main_arg9 = m ((c : Thread nD τ).loc main_arg9) := by
  kept_by_prefix main_arg9
theorem V_main_arg10 (c : Dev nD) : V m c main_arg10 = m ((c : Thread nD τ).loc main_arg10) := by
  kept_by_prefix main_arg10
theorem V_main_arg11 (c : Dev nD) : V m c main_arg11 = m ((c : Thread nD τ).loc main_arg11) := by
  kept_by_prefix main_arg11
theorem V_main_arg12 (c : Dev nD) : V m c main_arg12 = m ((c : Thread nD τ).loc main_arg12) := by
  kept_by_prefix main_arg12
theorem V_main_arg13 (c : Dev nD) : V m c main_arg13 = m ((c : Thread nD τ).loc main_arg13) := by
  kept_by_prefix main_arg13
theorem V_main_arg14 (c : Dev nD) : V m c main_arg14 = m ((c : Thread nD τ).loc main_arg14) := by
  kept_by_prefix main_arg14

/-! ## A window's block at a grid point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it
    (the three batch windows, at every point) or not (the weights and the bias, fetched at the first point
    only, their block index constant), for any proof data whose array is the region-entry contents and whose
    body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments unchanged, from a run of the region -/

/-- The three batch arrays are staged inputs, so the run ends with them at their entry contents; the twelve
    weight and bias arrays are staged by no window, so the run leaves them as the region found them; and the
    region found all fifteen as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.Kernel.Rgn

end
-- ==== Proof.Kernel.Body.lean ====
/-
  One step of the LSTM cell on a block of 128 batch rows. The body reads its three batch blocks (the inputs,
  the previous hidden state, the previous cell state), the two fused weight matrices and the fused bias row,
  each whole; it forms the four gates' pre-activations `x·Wx + h·Uh + b` (128 x 4096), cuts them into the
  input, forget, candidate and output gates (128 x 1024 each), and writes the new cell state
  `σ(f)·c + σ(i)·tanh(g)` and the new hidden state `σ(o)·tanh(c')`, each by one store of the whole output
  buffer. Stated here: what each output buffer holds after the body as a function of the six input buffers'
  contents, and that the body, run on whole buffers holding those contents, ends with the inputs as they were
  and the outputs at those functions. What the output buffers held before is read once and never used.
-/
import proofs.«141463_j6820408066632_1_alg».proof.Proof.Gen.Kernel.Launch
import proofs.«141463_j6820408066632_1_alg».proof.Proof.Gen.Kernel.Skeleton
import proofs.«141463_j6820408066632_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: every load and store takes its buffer whole -/

abbrev rBatch : Rect S128x1024 := Rect.unit (s := S128x1024) ![0, 0] S128x1024.size inb_S128x1024_S128x1024_0_0
abbrev rWeight : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in the two output buffers -/

/-- The new hidden state's buffer after the body: its one store, of `σ(o)·tanh(c')`, over the six inputs. -/
def hiddenOut (x h c : Vec F S128x1024 .f32) (wx uh : Vec F S1024x4096 .bf16) (b : Vec F S1x4096 .f32) : Vec F S128x1024 .f32 :=
  View.canon [⟨rBatch, k0_pay3 (View.ld x rBatch) (View.ld h rBatch) (View.ld wx rWeight) (View.ld uh rWeight) (View.ld b rBias) (View.ld c rBatch)⟩]

/-- The new cell state's buffer after the body: its one store, of `σ(f)·c + σ(i)·tanh(g)`, over the six inputs. -/
def cellOut (x h c : Vec F S128x1024 .f32) (wx uh : Vec F S1024x4096 .bf16) (b : Vec F S1x4096 .f32) : Vec F S128x1024 .f32 :=
  View.canon [⟨rBatch, k0_pay2 (View.ld x rBatch) (View.ld h rBatch) (View.ld wx rWeight) (View.ld uh rWeight) (View.ld b rBias) (View.ld c rBatch)⟩]

/-- One store of the whole buffer covers it. -/
theorem cover_batch (p0 : Vec F S128x1024 .f32) (y : S128x1024.Idx) :
    ∃ pc ∈ ([⟨rBatch, p0⟩] : List (View.Piece (Elt F) S128x1024 .f32)), y ∈ pc.1.set :=
  View.cover_of_tiled [⟨rBatch, p0⟩] S128x1024.size (by rfl) y

/-! ## The body's triple -/

set_option maxHeartbeats 1000000 in
/-- The body on whole buffers, the six inputs' at contents `x h c wx uh b` and the two outputs' at anything, runs to
    the continuation holding the inputs' as they were, the hidden state's at `hiddenOut` and the cell state's at
    `cellOut` of the inputs'. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hiddenOut x0 x1 x2 x3 x4 x5) ∗ owns (c : Thread nD τ) arg8 fullShare (cellOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_batch _)
  iexists _; isplitr
  swap; · iexact H7
  ipureintro
  exact View.read_writes_eq_canon _ _ _ (cover_batch _)

end Cert.Kernel.Rgn

end
-- ==== Proof.Kernel.Frame.lean ====
/-
  The run of the LSTM cell's kernel region over its 64 grid points. Point `t` is handed rows 128·t … 128·t + 127
  of the three batch arrays and, at every point, the whole of the two fused weight matrices and of the fused bias
  row; it leaves in the two output windows the new hidden and cell states of those rows. Stated here: the proof
  data of the pipeline (each input's staging buffer still at its block after the body, each output's at the
  body's result of the point's six input blocks), the body's obligation at a generic point (the body's triple on
  the buffers the pipeline calls it with), the run to the state where every array of the pipeline holds what the
  proof data computes and every other buffer is as the region found it, and from it that the fifteen argument
  arrays end as launched.
-/
import proofs.«141463_j6820408066632_1_alg».proof.Proof.Kernel.Entry
import proofs.«141463_j6820408066632_1_alg».proof.Proof.Kernel.Body

set_option maxRecDepth 16384

noncomputable section

namespace Cert.Kernel.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its
    block and each output's at the body's result of the six input blocks; the body uses nothing beyond its
    windows, signals no one, and holds every buffer whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenOut (iblk m c 0 t) (iblk m c 1 t) (iblk m c 2 t) (iblk m c 3 t) (iblk m c 4 t) (iblk m c 5 t)
    | ⟨7, _⟩ => cellOut (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_hidden (c : Dev nD) (t : Fin cfg0.N) : (dats m 0 c).after 6 t = hiddenOut (iblk m c 0 t) (iblk m c 1 t) (iblk m c 2 t) (iblk m c 3 t) (iblk m c 4 t) (iblk m c 5 t) := by dsimp only [dats]
theorem after_cell (c : Dev nD) (t : Fin cfg0.N) : (dats m 0 c).after 7 t = cellOut (iblk m c 0 t) (iblk m c 1 t) (iblk m c 2 t) (iblk m c 3 t) (iblk m c 4 t) (iblk m c 5 t) := by dsimp only [dats]

/-! Each input's current staging buffer holds its block at every point, fetched there or not. -/
theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data computes and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Rgn

end
-- ==== Proof.KernelIdeal.Entry.lean ====
/-
  The LSTM cell's program up to its one kernel region. Before the region the host lays the four gate
  matrices of each projection side by side (two arrays of 1024 x 4096, rounded to bf16) and the four gate
  biases end to end (one row of 4096); none of these operations writes an argument array. Stated here:
  what every buffer of a core holds when the region is entered (the fold of those six operations over the
  launch contents), that @main is those operations followed by the region, that each of the fifteen
  argument arrays is then still as launched, what block of its array a window shows at a grid point, and
  that a run of the region that ends with every array at the contents the proof data computes leaves the
  fifteen arguments unchanged.
-/
import proofs.«141463_j6820408066632_1_alg».proof.Proof.Gen.KernelIdeal.Launch
import proofs.«141463_j6820408066632_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The buffers when the region is entered -/

/-- Core `c`'s buffers after the six host operations: the three concatenations, the two roundings to bf16
    and the reshape, applied in order to the launch contents. -/
abbrev V (c : Dev nD) (b : Ref sig .tc) : Buf (Elt F) ((c : Thread nD τ).loc b) := StableHlo.after hostOps0 (fun b => m (c, b)) b

/-- Every host operation writes a buffer of its own: none allocates. -/
theorem hostOps0_fresh : (hostOps0 : List (HloOp τ sig (Elt F))).Forall fun op => op.fresh = ∅ := by
  simp only [List.Forall]; repeat' constructor

/-- @main is the six host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference that is the result of none of the six operations (they write `main_v0` … `main_v5`) holds
    at region entry what it held at launch. -/
local macro "kept_by_prefix " r:term : tactic =>
  `(tactic| exact StableHlo.after_of_forall_not_mem (b := Proc.devRef .tc $r) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide))))

theorem V_main_arg0 (c : Dev nD) : V m c main_arg0 = m ((c : Thread nD τ).loc main_arg0) := by
  kept_by_prefix main_arg0
theorem V_main_arg1 (c : Dev nD) : V m c main_arg1 = m ((c : Thread nD τ).loc main_arg1) := by
  kept_by_prefix main_arg1
theorem V_main_arg2 (c : Dev nD) : V m c main_arg2 = m ((c : Thread nD τ).loc main_arg2) := by
  kept_by_prefix main_arg2
theorem V_main_arg3 (c : Dev nD) : V m c main_arg3 = m ((c : Thread nD τ).loc main_arg3) := by
  kept_by_prefix main_arg3
theorem V_main_arg4 (c : Dev nD) : V m c main_arg4 = m ((c : Thread nD τ).loc main_arg4) := by
  kept_by_prefix main_arg4
theorem V_main_arg5 (c : Dev nD) : V m c main_arg5 = m ((c : Thread nD τ).loc main_arg5) := by
  kept_by_prefix main_arg5
theorem V_main_arg6 (c : Dev nD) : V m c main_arg6 = m ((c : Thread nD τ).loc main_arg6) := by
  kept_by_prefix main_arg6
theorem V_main_arg7 (c : Dev nD) : V m c main_arg7 = m ((c : Thread nD τ).loc main_arg7) := by
  kept_by_prefix main_arg7
theorem V_main_arg8 (c : Dev nD) : V m c main_arg8 = m ((c : Thread nD τ).loc main_arg8) := by
  kept_by_prefix main_arg8
theorem V_main_arg9 (c : Dev nD) : V m c main_arg9 = m ((c : Thread nD τ).loc main_arg9) := by
  kept_by_prefix main_arg9
theorem V_main_arg10 (c : Dev nD) : V m c main_arg10 = m ((c : Thread nD τ).loc main_arg10) := by
  kept_by_prefix main_arg10
theorem V_main_arg11 (c : Dev nD) : V m c main_arg11 = m ((c : Thread nD τ).loc main_arg11) := by
  kept_by_prefix main_arg11
theorem V_main_arg12 (c : Dev nD) : V m c main_arg12 = m ((c : Thread nD τ).loc main_arg12) := by
  kept_by_prefix main_arg12
theorem V_main_arg13 (c : Dev nD) : V m c main_arg13 = m ((c : Thread nD τ).loc main_arg13) := by
  kept_by_prefix main_arg13
theorem V_main_arg14 (c : Dev nD) : V m c main_arg14 = m ((c : Thread nD τ).loc main_arg14) := by
  kept_by_prefix main_arg14

/-! ## A window's block at a grid point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it
    (the three batch windows, at every point) or not (the weights and the bias, fetched at the first point
    only, their block index constant), for any proof data whose array is the region-entry contents and whose
    body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments unchanged, from a run of the region -/

/-- The three batch arrays are staged inputs, so the run ends with them at their entry contents; the twelve
    weight and bias arrays are staged by no window, so the run leaves them as the region found them; and the
    region found all fifteen as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.KernelIdeal.Rgn

end
-- ==== Proof.KernelIdeal.Body.lean ====
/-
  One step of the LSTM cell on a block of 128 batch rows. The body reads its three batch blocks (the inputs,
  the previous hidden state, the previous cell state), the two fused weight matrices and the fused bias row,
  each whole; it forms the four gates' pre-activations `x·Wx + h·Uh + b` (128 x 4096), cuts them into the
  input, forget, candidate and output gates (128 x 1024 each), and writes the new cell state
  `σ(f)·c + σ(i)·tanh(g)` and the new hidden state `σ(o)·tanh(c')`, each by one store of the whole output
  buffer. Stated here: what each output buffer holds after the body as a function of the six input buffers'
  contents, and that the body, run on whole buffers holding those contents, ends with the inputs as they were
  and the outputs at those functions. What the output buffers held before is read once and never used.
-/
import proofs.«141463_j6820408066632_1_alg».proof.Proof.Gen.KernelIdeal.Launch
import proofs.«141463_j6820408066632_1_alg».proof.Proof.Gen.KernelIdeal.Skeleton
import proofs.«141463_j6820408066632_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: every load and store takes its buffer whole -/

abbrev rBatch : Rect S128x1024 := Rect.unit (s := S128x1024) ![0, 0] S128x1024.size inb_S128x1024_S128x1024_0_0
abbrev rWeight : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in the two output buffers -/

/-- The new hidden state's buffer after the body: its one store, of `σ(o)·tanh(c')`, over the six inputs. -/
def hiddenOut (x h c : Vec F S128x1024 .f32) (wx uh : Vec F S1024x4096 .bf16) (b : Vec F S1x4096 .f32) : Vec F S128x1024 .f32 :=
  View.canon [⟨rBatch, k0_pay3 (View.ld x rBatch) (View.ld h rBatch) (View.ld wx rWeight) (View.ld uh rWeight) (View.ld b rBias) (View.ld c rBatch)⟩]

/-- The new cell state's buffer after the body: its one store, of `σ(f)·c + σ(i)·tanh(g)`, over the six inputs. -/
def cellOut (x h c : Vec F S128x1024 .f32) (wx uh : Vec F S1024x4096 .bf16) (b : Vec F S1x4096 .f32) : Vec F S128x1024 .f32 :=
  View.canon [⟨rBatch, k0_pay2 (View.ld x rBatch) (View.ld h rBatch) (View.ld wx rWeight) (View.ld uh rWeight) (View.ld b rBias) (View.ld c rBatch)⟩]

/-- One store of the whole buffer covers it. -/
theorem cover_batch (p0 : Vec F S128x1024 .f32) (y : S128x1024.Idx) :
    ∃ pc ∈ ([⟨rBatch, p0⟩] : List (View.Piece (Elt F) S128x1024 .f32)), y ∈ pc.1.set :=
  View.cover_of_tiled [⟨rBatch, p0⟩] S128x1024.size (by rfl) y

/-! ## The body's triple -/

set_option maxHeartbeats 1000000 in
/-- The body on whole buffers, the six inputs' at contents `x h c wx uh b` and the two outputs' at anything, runs to
    the continuation holding the inputs' as they were, the hidden state's at `hiddenOut` and the cell state's at
    `cellOut` of the inputs'. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hiddenOut x0 x1 x2 x3 x4 x5) ∗ owns (c : Thread nD τ) arg8 fullShare (cellOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_batch _)
  iexists _; isplitr
  swap; · iexact H7
  ipureintro
  exact View.read_writes_eq_canon _ _ _ (cover_batch _)

end Cert.KernelIdeal.Rgn

end
-- ==== Proof.KernelIdeal.Frame.lean ====
/-
  The run of the LSTM cell's kernel region over its 64 grid points. Point `t` is handed rows 128·t … 128·t + 127
  of the three batch arrays and, at every point, the whole of the two fused weight matrices and of the fused bias
  row; it leaves in the two output windows the new hidden and cell states of those rows. Stated here: the proof
  data of the pipeline (each input's staging buffer still at its block after the body, each output's at the
  body's result of the point's six input blocks), the body's obligation at a generic point (the body's triple on
  the buffers the pipeline calls it with), the run to the state where every array of the pipeline holds what the
  proof data computes and every other buffer is as the region found it, and from it that the fifteen argument
  arrays end as launched.
-/
import proofs.«141463_j6820408066632_1_alg».proof.Proof.KernelIdeal.Entry
import proofs.«141463_j6820408066632_1_alg».proof.Proof.KernelIdeal.Body

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its
    block and each output's at the body's result of the six input blocks; the body uses nothing beyond its
    windows, signals no one, and holds every buffer whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenOut (iblk m c 0 t) (iblk m c 1 t) (iblk m c 2 t) (iblk m c 3 t) (iblk m c 4 t) (iblk m c 5 t)
    | ⟨7, _⟩ => cellOut (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_hidden (c : Dev nD) (t : Fin cfg0.N) : (dats m 0 c).after 6 t = hiddenOut (iblk m c 0 t) (iblk m c 1 t) (iblk m c 2 t) (iblk m c 3 t) (iblk m c 4 t) (iblk m c 5 t) := by dsimp only [dats]
theorem after_cell (c : Dev nD) (t : Fin cfg0.N) : (dats m 0 c).after 7 t = cellOut (iblk m c 0 t) (iblk m c 1 t) (iblk m c 2 t) (iblk m c 3 t) (iblk m c 4 t) (iblk m c 5 t) := by dsimp only [dats]

/-! Each input's current staging buffer holds its block at every point, fetched there or not. -/
theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data computes and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Rgn

end
-- ==== Proof.KernelIdeal.Blocks.lean ====
/-
  How the 64 grid points tile the LSTM cell's arrays. Point `t` shows rows 128·t … 128·t + 127 of each batch
  array (the three inputs' windows and the two outputs' move together, block index (t, 0)), and the whole of the
  fused weights and of the fused bias row (block index (0, 0) at every point). Stated here: those block indices,
  decided over the grid; each input block read as rows of its array; what the host operations before the region
  leave in the three arrays they compute — the two fused weight matrices (rounded to bf16, which over the extended
  reals changes nothing) and the bias row, a reshape of the fused bias —; and that the output windows' 64 blocks
  cover their arrays, row `r` lying in block `r / 128`.
-/
import proofs.«141463_j6820408066632_1_alg».proof.Proof.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Rgn

open Idealize.ShloMosaic Idealize.ShloMosaic.TcCoe Idealize.SL.Sem Idealize.ShloMosaic.StableHlo
open Idealize.ShloMosaic.Pipeline (Dat)
open Idealize.ShloMosaic.ValueIdx
open Cert.KernelIdeal Cert.KernelIdeal.Gen

/-! ## The block indices, decided over the grid -/

/-- The five batch windows' block at point `t` is block (t, 0). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- The weights' and the bias's block is block (0, 0) at every point. -/
theorem idx_fixed : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

section Blocks

variable {F : FTy → Type} [FloatOps F]
variable (m : (ℓ : Loc nD τ sig) → Buf (Elt F) ℓ)

/-! ## Each input block as entries of its array -/

/-- Entry `x` of a batch window's block at point `t` is entry (128·t + x₀, x₁) of its array. -/
theorem block_in0 (c : Dev nD) (t : Fin cfg0.N) (x : S128x1024.Idx) (k : S8192x1024.Idx)
    (hk0 : (k 0).val = 128 * t.val + (x 0).val) (hk1 : (k 1).val = (x 1).val) :
    (iblk m c 0 t : Vec F S128x1024 .f32) x = (V m c main_arg0 : S8192x1024.Idx → Elt F .f32) k := by
  obtain ⟨e0, e1⟩ := (idx_rows t).1
  unfold iblk
  rw [View.read_apply]
  refine congrArg (V m c main_arg0 : S8192x1024.Idx → Elt F .f32) ?_
  funext a
  apply Fin.ext
  match a with
  | ⟨0, _⟩ => show win0_0.index t (0 : Fin 2) * 128 + 1 * (x 0).val = (k 0).val; rw [e0, hk0]; omega
  | ⟨1, _⟩ => show win0_0.index t (1 : Fin 2) * 1024 + 1 * (x 1).val = (k 1).val; rw [e1, hk1]; omega
theorem block_in1 (c : Dev nD) (t : Fin cfg0.N) (x : S128x1024.Idx) (k : S8192x1024.Idx)
    (hk0 : (k 0).val = 128 * t.val + (x 0).val) (hk1 : (k 1).val = (x 1).val) :
    (iblk m c 1 t : Vec F S128x1024 .f32) x = (V m c main_arg1 : S8192x1024.Idx → Elt F .f32) k := by
  obtain ⟨e0, e1⟩ := (idx_rows t).2.1
  unfold iblk
  rw [View.read_apply]
  refine congrArg (V m c main_arg1 : S8192x1024.Idx → Elt F .f32) ?_
  funext a
  apply Fin.ext
  match a with
  | ⟨0, _⟩ => show win0_1.index t (0 : Fin 2) * 128 + 1 * (x 0).val = (k 0).val; rw [e0, hk0]; omega
  | ⟨1, _⟩ => show win0_1.index t (1 : Fin 2) * 1024 + 1 * (x 1).val = (k 1).val; rw [e1, hk1]; omega
theorem block_in2 (c : Dev nD) (t : Fin cfg0.N) (x : S128x1024.Idx) (k : S8192x1024.Idx)
    (hk0 : (k 0).val = 128 * t.val + (x 0).val) (hk1 : (k 1).val = (x 1).val) :
    (iblk m c 2 t : Vec F S128x1024 .f32) x = (V m c main_arg2 : S8192x1024.Idx → Elt F .f32) k := by
  obtain ⟨e0, e1⟩ := (idx_rows t).2.2.1
  unfold iblk
  rw [View.read_apply]
  refine congrArg (V m c main_arg2 : S8192x1024.Idx → Elt F .f32) ?_
  funext a
  apply Fin.ext
  match a with
  | ⟨0, _⟩ => show win0_2.index t (0 : Fin 2) * 128 + 1 * (x 0).val = (k 0).val; rw [e0, hk0]; omega
  | ⟨1, _⟩ => show win0_2.index t (1 : Fin 2) * 1024 + 1 * (x 1).val = (k 1).val; rw [e1, hk1]; omega

/-- The weights' and the bias's block is the whole array. -/
theorem block_in3 (c : Dev nD) (t : Fin cfg0.N) :
    (iblk m c 3 t : Vec F S1024x4096 .bf16) = (V m c main_v1 : S1024x4096.Idx → Elt F .bf16) := by
  obtain ⟨e0, e1⟩ := (idx_fixed t).1
  funext x
  unfold iblk
  rw [View.read_apply]
  refine congrArg (V m c main_v1 : S1024x4096.Idx → Elt F .bf16) ?_
  funext a
  apply Fin.ext
  match a with
  | ⟨0, _⟩ => show win0_3.index t (0 : Fin 2) * 1024 + 1 * (x 0).val = (x 0).val; rw [e0]; omega
  | ⟨1, _⟩ => show win0_3.index t (1 : Fin 2) * 4096 + 1 * (x 1).val = (x 1).val; rw [e1]; omega
theorem block_in4 (c : Dev nD) (t : Fin cfg0.N) :
    (iblk m c 4 t : Vec F S1024x4096 .bf16) = (V m c main_v3 : S1024x4096.Idx → Elt F .bf16) := by
  obtain ⟨e0, e1⟩ := (idx_fixed t).2.1
  funext x
  unfold iblk
  rw [View.read_apply]
  refine congrArg (V m c main_v3 : S1024x4096.Idx → Elt F .bf16) ?_
  funext a
  apply Fin.ext
  match a with
  | ⟨0, _⟩ => show win0_4.index t (0 : Fin 2) * 1024 + 1 * (x 0).val = (x 0).val; rw [e0]; omega
  | ⟨1, _⟩ => show win0_4.index t (1 : Fin 2) * 4096 + 1 * (x 1).val = (x 1).val; rw [e1]; omega
theorem block_in5 (c : Dev nD) (t : Fin cfg0.N) :
    (iblk m c 5 t : Vec F S1x4096 .f32) = (V m c main_v5 : S1x4096.Idx → Elt F .f32) := by
  obtain ⟨e0, e1⟩ := (idx_fixed t).2.2
  funext x
  unfold iblk
  rw [View.read_apply]
  refine congrArg (V m c main_v5 : S1x4096.Idx → Elt F .f32) ?_
  funext a
  apply Fin.ext
  match a with
  | ⟨0, _⟩ => show win0_5.index t (0 : Fin 2) * 1 + 1 * (x 0).val = (x 0).val; rw [e0]; omega
  | ⟨1, _⟩ => show win0_5.index t (1 : Fin 2) * 4096 + 1 * (x 1).val = (x 1).val; rw [e1]; omega

/-! ## The output windows' blocks cover their arrays -/

theorem mem_block6 (t : Fin cfg0.N) (i : S8192x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v6_0).slice (win0_6.rect t)).set ↔ _
  rw [View.set_slice_whole, Rect.mem_set_unit]
  exact Iff.rfl

theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 64 := N_0
  have ht : (i 0).val / 128 < cfg0.N := by rw [hN]; omega
  refine ⟨⟨(i 0).val / 128, ht⟩, flush0_6 _, ?_⟩
  obtain ⟨e0, e1⟩ := (idx_rows ⟨(i 0).val / 128, ht⟩).2.2.2.1
  rw [mem_block6]
  intro a
  match a with
  | ⟨0, _⟩ => show win0_6.index ⟨(i 0).val / 128, ht⟩ (0 : Fin 2) * 128 ≤ (i 0).val ∧ (i 0).val < win0_6.index ⟨(i 0).val / 128, ht⟩ (0 : Fin 2) * 128 + 128; rw [e0]; show (i 0).val / 128 * 128 ≤ _ ∧ _ < (i 0).val / 128 * 128 + 128; omega
  | ⟨1, _⟩ => show win0_6.index ⟨(i 0).val / 128, ht⟩ (1 : Fin 2) * 1024 ≤ (i 1).val ∧ (i 1).val < win0_6.index ⟨(i 0).val / 128, ht⟩ (1 : Fin 2) * 1024 + 1024; rw [e1]; omega

theorem mem_block7 (t : Fin cfg0.N) (i : S8192x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v6_1).slice (win0_7.rect t)).set ↔ _
  rw [View.set_slice_whole, Rect.mem_set_unit]
  exact Iff.rfl

theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 64 := N_0
  have ht : (i 0).val / 128 < cfg0.N := by rw [hN]; omega
  refine ⟨⟨(i 0).val / 128, ht⟩, flush0_7 _, ?_⟩
  obtain ⟨e0, e1⟩ := (idx_rows ⟨(i 0).val / 128, ht⟩).2.2.2.2
  rw [mem_block7]
  intro a
  match a with
  | ⟨0, _⟩ => show win0_7.index ⟨(i 0).val / 128, ht⟩ (0 : Fin 2) * 128 ≤ (i 0).val ∧ (i 0).val < win0_7.index ⟨(i 0).val / 128, ht⟩ (0 : Fin 2) * 128 + 128; rw [e0]; show (i 0).val / 128 * 128 ≤ _ ∧ _ < (i 0).val / 128 * 128 + 128; omega
  | ⟨1, _⟩ => show win0_7.index ⟨(i 0).val / 128, ht⟩ (1 : Fin 2) * 1024 ≤ (i 1).val ∧ (i 1).val < win0_7.index ⟨(i 0).val / 128, ht⟩ (1 : Fin 2) * 1024 + 1024; rw [e1]; omega

end Blocks

/-! ## What the host operations leave in the arrays they compute, over the extended reals -/

section Fused

variable (m : (ℓ : Loc nD τ sig) → Buf (Elt Ideal) ℓ)

/-- The input-side fused weights: the four gates' matrices side by side. -/
abbrev fusedWx (c : Dev nD) : S1024x4096.Idx → EReal :=
  concatenate S1024x4096 1 [⟨S1024x1024, m ((c : Thread nD τ).loc main_arg3)⟩, ⟨S1024x1024, m ((c : Thread nD τ).loc main_arg6)⟩, ⟨S1024x1024, m ((c : Thread nD τ).loc main_arg9)⟩, ⟨S1024x1024, m ((c : Thread nD τ).loc main_arg12)⟩] concatenates_S1024x1024_S1024x1024_S1024x1024_S1024x1024_S1024x4096_d1

/-- The hidden-side fused weights. -/
abbrev fusedUh (c : Dev nD) : S1024x4096.Idx → EReal :=
  concatenate S1024x4096 1 [⟨S1024x1024, m ((c : Thread nD τ).loc main_arg4)⟩, ⟨S1024x1024, m ((c : Thread nD τ).loc main_arg7)⟩, ⟨S1024x1024, m ((c : Thread nD τ).loc main_arg10)⟩, ⟨S1024x1024, m ((c : Thread nD τ).loc main_arg13)⟩] concatenates_S1024x1024_S1024x1024_S1024x1024_S1024x1024_S1024x4096_d1

/-- The fused bias: the four gates' biases end to end. -/
abbrev fusedB (c : Dev nD) : S4096.Idx → EReal :=
  concatenate S4096 0 [⟨S1024, m ((c : Thread nD τ).loc main_arg5)⟩, ⟨S1024, m ((c : Thread nD τ).loc main_arg8)⟩, ⟨S1024, m ((c : Thread nD τ).loc main_arg11)⟩, ⟨S1024, m ((c : Thread nD τ).loc main_arg14)⟩] concatenates_S1024_S1024_S1024_S1024_S4096_d0

theorem entry_wx (c : Dev nD) : (V m c main_v1 : S1024x4096.Idx → EReal) = fusedWx m c := by
  dsimp only [V, hostOps0]
  after_results
  rfl

theorem entry_uh (c : Dev nD) : (V m c main_v3 : S1024x4096.Idx → EReal) = fusedUh m c := by
  dsimp only [V, hostOps0]
  after_results
  rfl

/-- The bias row is the fused bias read along its one long axis. -/
theorem entry_b (c : Dev nD) (j : Fin 4096) : (V m c main_v5 : S1x4096.Idx → EReal) (ix2 (0 : Fin 1) j) = fusedB m c (ix1 j) := by
  have e : (V m c main_v5 : S1x4096.Idx → EReal) = shapeCast S1x4096 (fusedB m c) shapeCasts_S4096_S1x4096 := by
    dsimp only [V, hostOps0]
    after_results
    rfl
  rw [e]
  refine (shapeCast_addUnit_apply (n := 1) ![4096] (fusedB m c) shapeCasts_S4096_S1x4096 (ix2 (0 : Fin 1) j)).trans ?_
  refine congrArg (fusedB m c) ?_
  funext a
  match a with
  | ⟨0, _⟩ => rfl

end Fused

end Cert.KernelIdeal.Rgn

end
-- ==== Proof.Spec.lean ====
/-
  One step of an LSTM cell, row by row, over the extended reals.

  A batch row carries an input vector `x`, a previous hidden state `h` and a previous cell state `c`, each of
  1024 entries. The four gates share two fused weight matrices `Wx`, `Uh` (1024 x 4096: the input, forget,
  candidate and output gates' columns side by side, 1024 each) and one fused bias `b` (4096). Column `j` of
  the row's pre-activations is

      z j = (∑ κ, x κ · Wx κ j  +  ∑ κ, h κ · Uh κ j)  +  b j,

  and with `σ` the logistic function the new states at position `q < 1024` are

      c' q = σ (z (1024 + q)) · c q  +  σ (z q) · tanh (z (2048 + q)),
      h' q = σ (z (3072 + q)) · tanh (c' q).

  Nothing here depends on how many rows a batch or a block has: a row is three functions of `Fin 1024`.
-/
import Idealize.ShloMosaic.Lib.ValueIdx
import Idealize.ShloMosaic.PureOps.Ideal

noncomputable section

namespace Cert.Lstm

open Idealize.ShloMosaic

/-- Row `r` of a two-axis array, as a function of the column. -/
abbrev rowOf {n k : ℕ} (a : (⟨2, ![n, k]⟩ : Shape).Idx → EReal) (r : Fin n) : Fin k → EReal := fun κ => a (ValueIdx.ix2 r κ)

/-- A two-axis array as a function of row and column. -/
abbrev mat {n k : ℕ} (a : (⟨2, ![n, k]⟩ : Shape).Idx → EReal) : Fin n → Fin k → EReal := fun r κ => a (ValueIdx.ix2 r κ)

/-- A one-axis array as a function of its position. -/
abbrev vec {n : ℕ} (a : (⟨1, ![n]⟩ : Shape).Idx → EReal) : Fin n → EReal := fun j => a (ValueIdx.ix1 j)

/-- Position `q` of gate number `g` (0 input, 1 forget, 2 candidate, 3 output) among the 4096 fused columns. -/
def gate (g : Fin 4) (q : Fin 1024) : Fin 4096 := ⟨1024 * g.val + q.val, by have := g.isLt; have := q.isLt; omega⟩

/-- Column `j` of a row's fused pre-activations. -/
def pre (x h : Fin 1024 → EReal) (wx uh : Fin 1024 → Fin 4096 → EReal) (b : Fin 4096 → EReal) (j : Fin 4096) : EReal :=
  ((∑ κ : Fin 1024, x κ * wx κ j) + ∑ κ : Fin 1024, h κ * uh κ j) + b j

/-- The row's new cell state at position `q`. -/
def cellRow (x h c : Fin 1024 → EReal) (wx uh : Fin 1024 → Fin 4096 → EReal) (b : Fin 4096 → EReal) (q : Fin 1024) : EReal :=
  Ideal.logistic (pre x h wx uh b (gate 1 q)) * c q + Ideal.logistic (pre x h wx uh b (gate 0 q)) * Ideal.tanh (pre x h wx uh b (gate 2 q))

/-- The row's new hidden state at position `q`. -/
def hiddenRow (x h c : Fin 1024 → EReal) (wx uh : Fin 1024 → Fin 4096 → EReal) (b : Fin 4096 → EReal) (q : Fin 1024) : EReal :=
  Ideal.logistic (pre x h wx uh b (gate 3 q)) * Ideal.tanh (cellRow x h c wx uh b q)

end Cert.Lstm

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KernelIdeal.Payload.lean ====
/-
  The kernel body's two stored values, read at an entry of the 128 x 1024 block, are the rows of the specification.

  The body forms the 128 x 4096 array of pre-activations  z = x · Wx + h · Uh + b  (two matrix products into a zero
  accumulator, the bias row repeated down the 128 rows), cuts it into its four 1024-column gates, and combines them
  lane by lane:  c' = σ(z₁) · c + σ(z₀) · tanh(z₂),  h' = σ(z₃) · tanh(c').  Over the extended reals a change of
  float format and a cast to the same shape are identities and a product into zero is the exact sum over the
  contraction index, so entry (p, j) of z is the specification's pre-activation of row p at column j; column q of
  gate g is column 1024·g + q of z; and the lane-by-lane operations read at (p, q) are the scalar ones.
-/
import proofs.«141463_j6820408066632_1_alg».proof.Proof.Gen.KernelIdeal.Skeleton
import proofs.«141463_j6820408066632_1_alg».proof.Proof.Spec
import proofs.«141463_j6820408066632_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Lstm

/-- The dimension numbers of the body's two products are those of a plain matrix product. -/
theorem plain : Cert.PlainDot.Plain dot_S128x1024_S1024x4096_S128x4096_1_0_0_1_n_n := ⟨rfl, rfl, rfl, rfl, rfl, rfl⟩

/-- One product of the body at an entry: the exact sum over the 1024 contraction positions. -/
theorem dot_entry (x : Vec Ideal S128x1024 .f32) (w : Vec Ideal S1024x4096 .bf16) (p : Fin 128) (j : Fin 4096) :
    matmul (F := Ideal) dot_S128x1024_S1024x4096_S128x4096_1_0_0_1_n_n none (truncf .bf16 x bitsLt_bf16_f32)
        (shapeCast S1024x4096 w shapeCasts_S1024x4096_S1024x4096 : FVec Ideal S1024x4096 .bf16) (constant S128x4096 .f32 0x00000000#32) (ix2 p j)
      = ∑ κ : Fin 1024, x (ix2 p κ) * w (ix2 κ j) := by
  rw [shapeCast_self]
  exact Cert.PlainDot.matmul_zero_apply plain rfl rfl none _ _ p j

/-- The bias row repeated down the rows, at an entry: the bias at that column. -/
theorem bias_apply (b : Vec Ideal S1x4096 .f32) (p : Fin 128) (j : Fin 4096) :
    broadcastTo S128x4096 (shapeCast S1x4096 b shapeCasts_S1x4096_S1x4096) broadcasts_S1x4096_S128x4096 (ix2 p j)
      = b (ix2 (0 : Fin 1) j) := by
  rw [shapeCast_self]
  refine broadcastTo_apply b _ (ix2 p j) (ix2 (0 : Fin 1) j) fun a => ?_
  match a with
  | ⟨0, _⟩ => rfl
  | ⟨1, _⟩ => rfl

/-- Entry (p, j) of the body's pre-activations is the specification's pre-activation of row p at column j. -/
theorem pre_pay (x0 x1 : Vec Ideal S128x1024 .f32) (x3 x4 : Vec Ideal S1024x4096 .bf16) (x5 : Vec Ideal S1x4096 .f32)
    (p : Fin 128) (j : Fin 4096) :
    k0_pay1 (F := Ideal) x0 x1 x3 x4 x5 (ix2 p j)
      = pre (rowOf x0 p) (rowOf x1 p) (mat x3) (mat x4) (fun j => x5 (ix2 (0 : Fin 1) j)) j := by
  unfold k0_pay1 pre
  exact congrArg₂ (· + ·) (congrArg₂ (· + ·) (dot_entry x0 x3 p j) (dot_entry x1 x4 p j)) (bias_apply x5 p j)

/-- A block of 1024 columns cut from the 128 x 4096 array at column offset `o`, read at (p, q): the array at column
    `o + q`. -/
theorem slice_entry (o : ℕ) (z : FVec Ideal S128x4096 .f32) (h : S128x4096.Slices ![0, o] S128x1024) (p : Fin 128)
    (q : Fin 1024) (j : Fin 4096) (hj : j.val = o + q.val) :
    extractStridedSlice S128x1024 ![0, o] z h (ix2 p q) = z (ix2 p j) := by
  refine extractStridedSlice_apply _ z h (ix2 p q) (ix2 p j) fun a => ?_
  match a with
  | ⟨0, _⟩ => exact (Nat.zero_add _).symm
  | ⟨1, _⟩ => exact hj

/-- Gate `g`'s block of the body's pre-activations, read at (p, q): the specification's pre-activation of row p at
    column `gate g q`. -/
theorem gate_pay (x0 x1 : Vec Ideal S128x1024 .f32) (x3 x4 : Vec Ideal S1024x4096 .bf16) (x5 : Vec Ideal S1x4096 .f32)
    (g : Fin 4) (h : S128x4096.Slices ![0, 1024 * g.val] S128x1024) (p : Fin 128) (q : Fin 1024) :
    extractStridedSlice S128x1024 ![0, 1024 * g.val] (k0_pay1 (F := Ideal) x0 x1 x3 x4 x5) h (ix2 p q)
      = pre (rowOf x0 p) (rowOf x1 p) (mat x3) (mat x4) (fun j => x5 (ix2 (0 : Fin 1) j)) (gate g q) :=
  (slice_entry _ _ h p q (gate g q) rfl).trans (pre_pay x0 x1 x3 x4 x5 p (gate g q))

/-- The stored cell state at (p, q) is the specification's new cell state of row p at position q. -/
theorem cell_pay (x0 x1 x2 : Vec Ideal S128x1024 .f32) (x3 x4 : Vec Ideal S1024x4096 .bf16) (x5 : Vec Ideal S1x4096 .f32) (p : Fin 128) (q : Fin 1024) :
    k0_pay2 (F := Ideal) x0 x1 x3 x4 x5 x2 (ix2 p q)
      = cellRow (rowOf x0 p) (rowOf x1 p) (rowOf x2 p) (mat x3) (mat x4) (fun j => x5 (ix2 (0 : Fin 1) j)) q := by
  have e0 := gate_pay x0 x1 x3 x4 x5 0 slices_S128x4096_o0_0_S128x1024 p q
  have e1 := gate_pay x0 x1 x3 x4 x5 1 slices_S128x4096_o0_1024_S128x1024 p q
  have e2 := gate_pay x0 x1 x3 x4 x5 2 slices_S128x4096_o0_2048_S128x1024 p q
  unfold k0_pay2 cellRow
  exact congrArg₂ (· + ·) (congrArg (· * x2 (ix2 p q)) (congrArg Ideal.logistic e1))
    (congrArg₂ (· * ·) (congrArg Ideal.logistic e0) (congrArg Ideal.tanh e2))

/-- The stored hidden state at (p, q) is the specification's new hidden state of row p at position q. -/
theorem hidden_pay (x0 x1 x2 : Vec Ideal S128x1024 .f32) (x3 x4 : Vec Ideal S1024x4096 .bf16) (x5 : Vec Ideal S1x4096 .f32) (p : Fin 128) (q : Fin 1024) :
    k0_pay3 (F := Ideal) x0 x1 x3 x4 x5 x2 (ix2 p q)
      = hiddenRow (rowOf x0 p) (rowOf x1 p) (rowOf x2 p) (mat x3) (mat x4) (fun j => x5 (ix2 (0 : Fin 1) j)) q := by
  have e3 := gate_pay x0 x1 x3 x4 x5 3 slices_S128x4096_o0_3072_S128x1024 p q
  unfold k0_pay3 hiddenRow
  exact congrArg₂ (· * ·) (congrArg Ideal.logistic e3) (congrArg Ideal.tanh (cell_pay x0 x1 x2 x3 x4 x5 p q))

end Cert.KernelIdeal.Payload

end
-- ==== Proof.KernelIdeal.Arrays.lean ====
/-
  The kernel's two result arrays as functions of its arguments, over the extended reals. Row `r` of the batch is
  handled by grid point `r / 128` as row `r mod 128` of that point's blocks; the body's stored values at an entry
  are the LSTM cell's row formulas of the block's rows, the fused weights and the bias row; a block's row is a row
  of the argument array, the weights' block is the host's fused matrix, the bias block the host's fused bias. So
  each point writes back its 128 rows of ONE function of the arguments — the batch's new hidden state and new cell
  state, row by row — and the 64 points' blocks cover the arrays.
-/
import proofs.«141463_j6820408066632_1_alg».proof.Proof.KernelIdeal.Blocks
import proofs.«141463_j6820408066632_1_alg».proof.Proof.KernelIdeal.Payload
import proofs.«141463_j6820408066632_1_alg».proof.Proof.Spec

set_option maxRecDepth 16384

noncomputable section

namespace Cert.KernelIdeal.Rgn

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Payload Cert.Lstm

variable (m : (ℓ : Loc nD τ sig) → Buf (Elt Ideal) ℓ) (ρ : Dev nD → PrngReg)

theorem hz : (![0, 0] : Fin 2 → Nat) = fun _ => 0 := funext fun a => by fin_cases a <;> rfl

/-! ## The batch's new states as functions of the arguments -/

/-- The new cell state of every row of the batch. -/
abbrev cellAll (c : Dev nD) : S8192x1024.Idx → EReal := fun i =>
  cellRow (rowOf (m ((c : Thread nD τ).loc main_arg0) : S8192x1024.Idx → EReal) (i 0)) (rowOf (m ((c : Thread nD τ).loc main_arg1) : S8192x1024.Idx → EReal) (i 0)) (rowOf (m ((c : Thread nD τ).loc main_arg2) : S8192x1024.Idx → EReal) (i 0))
    (mat (fusedWx m c)) (mat (fusedUh m c)) (vec (fusedB m c)) (i 1)

/-- The new hidden state of every row of the batch. -/
abbrev hiddenAll (c : Dev nD) : S8192x1024.Idx → EReal := fun i =>
  hiddenRow (rowOf (m ((c : Thread nD τ).loc main_arg0) : S8192x1024.Idx → EReal) (i 0)) (rowOf (m ((c : Thread nD τ).loc main_arg1) : S8192x1024.Idx → EReal) (i 0)) (rowOf (m ((c : Thread nD τ).loc main_arg2) : S8192x1024.Idx → EReal) (i 0))
    (mat (fusedWx m c)) (mat (fusedUh m c)) (vec (fusedB m c)) (i 1)

/-! ## The six input blocks of a point, at their literal types -/

abbrev bx (c : Dev nD) (t : Fin cfg0.N) : Vec Ideal S128x1024 .f32 := iblk m c 0 t
abbrev bh (c : Dev nD) (t : Fin cfg0.N) : Vec Ideal S128x1024 .f32 := iblk m c 1 t
abbrev bc (c : Dev nD) (t : Fin cfg0.N) : Vec Ideal S128x1024 .f32 := iblk m c 2 t
abbrev bwx (c : Dev nD) (t : Fin cfg0.N) : Vec Ideal S1024x4096 .bf16 := iblk m c 3 t
abbrev buh (c : Dev nD) (t : Fin cfg0.N) : Vec Ideal S1024x4096 .bf16 := iblk m c 4 t
abbrev bb (c : Dev nD) (t : Fin cfg0.N) : Vec Ideal S1x4096 .f32 := iblk m c 5 t

/-- Row `p` of point `t`'s three batch blocks is row 128·t + p of the three batch arguments. -/
theorem rows_eq (c : Dev nD) (t : Fin cfg0.N) (p : Fin 128) (r : Fin 8192) (hr : r.val = 128 * t.val + p.val) :
    rowOf (bx m c t) p = rowOf (m ((c : Thread nD τ).loc main_arg0) : S8192x1024.Idx → EReal) r ∧ rowOf (bh m c t) p = rowOf (m ((c : Thread nD τ).loc main_arg1) : S8192x1024.Idx → EReal) r ∧ rowOf (bc m c t) p = rowOf (m ((c : Thread nD τ).loc main_arg2) : S8192x1024.Idx → EReal) r := by
  refine ⟨funext fun κ => ?_, funext fun κ => ?_, funext fun κ => ?_⟩
  · exact (block_in0 m c t (ix2 p κ) (ix2 r κ) hr rfl).trans (congrFun (V_main_arg0 m c) _)
  · exact (block_in1 m c t (ix2 p κ) (ix2 r κ) hr rfl).trans (congrFun (V_main_arg1 m c) _)
  · exact (block_in2 m c t (ix2 p κ) (ix2 r κ) hr rfl).trans (congrFun (V_main_arg2 m c) _)

/-- The weights' blocks are the host's fused matrices, at every point. -/
theorem mat_wx (c : Dev nD) (t : Fin cfg0.N) : mat (bwx m c t) = mat (fusedWx m c) := by
  show mat (iblk m c 3 t : Vec Ideal S1024x4096 .bf16) = _
  rw [block_in3 m c t, entry_wx m c]
theorem mat_uh (c : Dev nD) (t : Fin cfg0.N) : mat (buh m c t) = mat (fusedUh m c) := by
  show mat (iblk m c 4 t : Vec Ideal S1024x4096 .bf16) = _
  rw [block_in4 m c t, entry_uh m c]

/-- The bias block's one row is the host's fused bias. -/
theorem vec_b (c : Dev nD) (t : Fin cfg0.N) : (fun j => bb m c t (ix2 (0 : Fin 1) j)) = vec (fusedB m c) := by
  funext j
  show (iblk m c 5 t : Vec Ideal S1x4096 .f32) (ix2 (0 : Fin 1) j) = _
  rw [block_in5 m c t]
  exact entry_b m c j

/-- Entry (p, q) of what point `t` computes for the cell state is entry (128·t + p, q) of the batch's. -/
theorem cell_block (c : Dev nD) (t : Fin cfg0.N) (p : Fin 128) (q : Fin 1024) (k : S8192x1024.Idx)
    (hk0 : (k 0).val = 128 * t.val + p.val) (hk1 : (k 1).val = q.val) :
    k0_pay2 (F := Ideal) (bx m c t) (bh m c t) (bwx m c t) (buh m c t) (bb m c t) (bc m c t) (ix2 p q) = cellAll m c k := by
  refine (cell_pay (bx m c t) (bh m c t) (bc m c t) (bwx m c t) (buh m c t) (bb m c t) p q).trans ?_
  obtain ⟨r0, r1, r2⟩ := rows_eq m c t p (k 0) hk0
  show cellRow _ _ _ _ _ _ q = cellRow _ _ _ _ _ _ (k 1)
  rw [r0, r1, r2, mat_wx m c t, mat_uh m c t, vec_b m c t]
  exact congrArg _ (Fin.ext hk1.symm)

/-- What point `t` writes back to the cell state's array is block `t` of the batch's cell state. -/
theorem flushed_cell (c : Dev nD) (t : Fin cfg0.N) :
    (dats m 0 c).flushed 7 t = ((cfg0.win 7).blk t).view.read (Elt Ideal) (cellAll m c) := by
  show (cfg0.win 7).cut (grid0.coords t) ((dats m 0 c).after 7 t) = _
  rw [after_cell]
  unfold cellOut
  rw [View.canon_unit_zero hz]
  simp only [View.ld_unit_zero (S := S128x1024) hz, View.ld_unit_zero (S := S1024x4096) hz, View.ld_unit_zero (S := S1x4096) hz]
  refine funext fun (j : S128x1024.Idx) => ?_
  obtain ⟨p, q, rfl⟩ : ∃ (p : Fin 128) (q : Fin 1024), j = ix2 p q := ⟨j 0, j 1, eq_ix2 j⟩
  obtain ⟨e0, e1⟩ := (idx_rows t).2.2.2.2
  refine cell_block m c t p q _ ?_ ?_
  · show win0_7.index t (0 : Fin 2) * 128 + 1 * p.val = _; rw [e0]; omega
  · show win0_7.index t (1 : Fin 2) * 1024 + 1 * q.val = _; rw [e1]; omega

/-- The 64 blocks cover the array, so after the run it is the batch's cell state. -/
theorem final_cell (c : Dev nD) : (dats m 0 c).arrAt 7 cfg0.N = cellAll m c :=
  (dats m 0 c).arrAt_eq_of_cover 7 (cellAll m c) (fun t _ => flushed_cell m c t) cover7

/-- Entry (p, q) of what point `t` computes for the hidden state is entry (128·t + p, q) of the batch's. -/
theorem hidden_block (c : Dev nD) (t : Fin cfg0.N) (p : Fin 128) (q : Fin 1024) (k : S8192x1024.Idx)
    (hk0 : (k 0).val = 128 * t.val + p.val) (hk1 : (k 1).val = q.val) :
    k0_pay3 (F := Ideal) (bx m c t) (bh m c t) (bwx m c t) (buh m c t) (bb m c t) (bc m c t) (ix2 p q) = hiddenAll m c k := by
  refine (hidden_pay (bx m c t) (bh m c t) (bc m c t) (bwx m c t) (buh m c t) (bb m c t) p q).trans ?_
  obtain ⟨r0, r1, r2⟩ := rows_eq m c t p (k 0) hk0
  show hiddenRow _ _ _ _ _ _ q = hiddenRow _ _ _ _ _ _ (k 1)
  rw [r0, r1, r2, mat_wx m c t, mat_uh m c t, vec_b m c t]
  exact congrArg _ (Fin.ext hk1.symm)

/-- What point `t` writes back to the hidden state's array is block `t` of the batch's hidden state. -/
theorem flushed_hidden (c : Dev nD) (t : Fin cfg0.N) :
    (dats m 0 c).flushed 6 t = ((cfg0.win 6).blk t).view.read (Elt Ideal) (hiddenAll m c) := by
  show (cfg0.win 6).cut (grid0.coords t) ((dats m 0 c).after 6 t) = _
  rw [after_hidden]
  unfold hiddenOut
  rw [View.canon_unit_zero hz]
  simp only [View.ld_unit_zero (S := S128x1024) hz, View.ld_unit_zero (S := S1024x4096) hz, View.ld_unit_zero (S := S1x4096) hz]
  refine funext fun (j : S128x1024.Idx) => ?_
  obtain ⟨p, q, rfl⟩ : ∃ (p : Fin 128) (q : Fin 1024), j = ix2 p q := ⟨j 0, j 1, eq_ix2 j⟩
  obtain ⟨e0, e1⟩ := (idx_rows t).2.2.2.1
  refine hidden_block m c t p q _ ?_ ?_
  · show win0_6.index t (0 : Fin 2) * 128 + 1 * p.val = _; rw [e0]; omega
  · show win0_6.index t (1 : Fin 2) * 1024 + 1 * q.val = _; rw [e1]; omega

/-- The 64 blocks cover the array, so after the run it is the batch's hidden state. -/
theorem final_hidden (c : Dev nD) : (dats m 0 c).arrAt 6 cfg0.N = hiddenAll m c :=
  (dats m 0 c).arrAt_eq_of_cover 6 (hiddenAll m c) (fun t _ => flushed_hidden m c t) cover6

/-! ## The run, read -/

/-- Every weakly fair execution of the kernel's program ends with the first result at the batch's new hidden
    state, the second at its new cell state, and the fifteen arguments as launched. -/
theorem run : θ_run defs (onTc (τ := τ) (main (F := Ideal))) ⟨m, fun _ => 0, ρ⟩ fun r => ∀ c : Dev nD,
      r.2.mem ((c.tc : Thread nD τ).loc main_v6_0) = hiddenAll m c
      ∧ r.2.mem ((c.tc : Thread nD τ).loc main_v6_1) = cellAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨((h c).1 6).trans (final_hidden m c), ((h c).1 7).trans (final_cell m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.Rgn

end
-- ==== Proof.Reference.Stages.lean ====
/-
  The reference program's two results, read one operation at a time, are the rows of the specification.

  The reference joins the four gates' weights side by side into Wx, Uh (1024 x 4096) and the four biases into b
  (4096), forms  z = x · Wx + h · Uh + b  (the bias repeated over the rows), cuts z into four column blocks of
  width 1024, and on each block applies the gate's function, the logistic function written out as
  1 / (1 + exp (−z)). Entry (p, j) of z is the specification's pre-activation of row p at column j; block g of z at
  (p, q) is z at column 1024 · g + q; the written-out quotient is the logistic function by definition, once the
  float word 0x3F800000 is read as the number one. The new cell state is then
  σ(z₁) · c + σ(z₀) · tanh z₂ and the new hidden state σ(z₃) · tanh c', entry by entry.

  The joined arrays themselves are never opened: every statement below holds for whatever they contain.
-/
import proofs.«141463_j6820408066632_1_alg».proof.Proof.Gen.ReferenceIdeal.Read
import proofs.«141463_j6820408066632_1_alg».proof.Proof.Spec

noncomputable section

namespace Cert.ReferenceIdeal.Stages

open Cert.ReferenceIdeal Cert.ReferenceIdeal.Read Idealize.ShloMosaic Idealize.ShloMosaic.ValueIdx Cert.Lstm

/-! ## The number one and the logistic function written out -/

/-- The single-precision word 0x3F800000 denotes the number one. -/
theorem one_f32 : Ideal.ofBits .f32 0x3F800000#32 = 1 := by
  simp [Ideal.ofBits, Ideal.ieee, -EReal.coe_mul]; norm_num

/-- One divided by one plus the exponential of the negated argument is the logistic function. -/
theorem logistic_spelled (z : Ideal .f32) :
    FloatOps.hostDivf (F := Ideal) (FloatOps.ofBits .f32 0x3F800000#32)
        (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.logistic z
  rw [one_f32]
  rfl

section Stages

variable (x0 x1 x2 : (⟨S8192x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal))

/-! ## The pre-activations -/

/-- Entry (r, j) of x · Wx + h · Uh + b is the pre-activation of row r at column j. -/
theorem pre_ref (r : Fin 8192) (j : Fin 4096) :
    val_main_v8 (F := Ideal) x0 x1 x3 x4 x5 x6 x7 x8 x9 x10 x11 x12 x13 x14 (ix2 r j) = pre (rowOf x0 r) (rowOf x1 r) (mat (val_main_v0 (F := Ideal) x3 x6 x9 x12)) (mat (val_main_v1 (F := Ideal) x4 x7 x10 x13)) (vec (val_main_v2 (F := Ideal) x5 x8 x11 x14)) j := by
  rw [val_main_v8_apply, val_main_v5_apply, val_main_v3_apply, val_main_v4_apply, val_main_v7_apply, val_main_v6_apply]
  generalize val_main_v0 (F := Ideal) x3 x6 x9 x12 = wx
  generalize val_main_v1 (F := Ideal) x4 x7 x10 x13 = uh
  generalize val_main_v2 (F := Ideal) x5 x8 x11 x14 = b
  have el3 : ∀ k : Fin 1024, lidx_main_v3 (ix2 r j) k = ix2 r k := fun k => funext fun a => Fin.ext (by
    match a with | ⟨0, _⟩ => rfl | ⟨1, _⟩ => rfl)
  have er3 : ∀ k : Fin 1024, ridx_main_v3 (ix2 r j) k = ix2 k j := fun k => funext fun a => Fin.ext (by
    match a with | ⟨0, _⟩ => rfl | ⟨1, _⟩ => rfl)
  have el4 : ∀ k : Fin 1024, lidx_main_v4 (ix2 r j) k = ix2 r k := fun k => funext fun a => Fin.ext (by
    match a with | ⟨0, _⟩ => rfl | ⟨1, _⟩ => rfl)
  have er4 : ∀ k : Fin 1024, ridx_main_v4 (ix2 r j) k = ix2 k j := fun k => funext fun a => Fin.ext (by
    match a with | ⟨0, _⟩ => rfl | ⟨1, _⟩ => rfl)
  have eb : idx_main_v6 (idx_main_v7 (ix2 r j)) = ix1 j := funext fun a => Fin.ext (by
    match a with | ⟨0, _⟩ => rfl)
  simp only [el3, er3, el4, er4, eb]
  rfl

/-! ## The four column blocks of the pre-activations -/

/-- Columns 0 … 1023: the input gate's pre-activations. -/
theorem block0_ref (p : Fin 8192) (q : Fin 1024) :
    val_main_v9 (F := Ideal) x0 x1 x3 x4 x5 x6 x7 x8 x9 x10 x11 x12 x13 x14 (ix2 p q) = pre (rowOf x0 p) (rowOf x1 p) (mat (val_main_v0 (F := Ideal) x3 x6 x9 x12)) (mat (val_main_v1 (F := Ideal) x4 x7 x10 x13)) (vec (val_main_v2 (F := Ideal) x5 x8 x11 x14)) (gate 0 q) := by
  have e : idx_main_v9 (ix2 p q) = ix2 p (gate 0 q) := funext fun a => Fin.ext (by
    match a with
    | ⟨0, _⟩ => rfl
    | ⟨1, _⟩ => show _ = 1024 * (0 : Fin 4).val + q.val; simp)
  rw [val_main_v9_apply, e, pre_ref]

/-- Columns 1024 … 2047: the forget gate's pre-activations. -/
theorem block1_ref (p : Fin 8192) (q : Fin 1024) :
    val_main_v10 (F := Ideal) x0 x1 x3 x4 x5 x6 x7 x8 x9 x10 x11 x12 x13 x14 (ix2 p q) = pre (rowOf x0 p) (rowOf x1 p) (mat (val_main_v0 (F := Ideal) x3 x6 x9 x12)) (mat (val_main_v1 (F := Ideal) x4 x7 x10 x13)) (vec (val_main_v2 (F := Ideal) x5 x8 x11 x14)) (gate 1 q) := by
  have e : idx_main_v10 (ix2 p q) = ix2 p (gate 1 q) := funext fun a => Fin.ext (by
    match a with
    | ⟨0, _⟩ => rfl
    | ⟨1, _⟩ => show _ = 1024 * (1 : Fin 4).val + q.val; simp)
  rw [val_main_v10_apply, e, pre_ref]

/-- Columns 2048 … 3071: the candidate's pre-activations. -/
theorem block2_ref (p : Fin 8192) (q : Fin 1024) :
    val_main_v11 (F := Ideal) x0 x1 x3 x4 x5 x6 x7 x8 x9 x10 x11 x12 x13 x14 (ix2 p q) = pre (rowOf x0 p) (rowOf x1 p) (mat (val_main_v0 (F := Ideal) x3 x6 x9 x12)) (mat (val_main_v1 (F := Ideal) x4 x7 x10 x13)) (vec (val_main_v2 (F := Ideal) x5 x8 x11 x14)) (gate 2 q) := by
  have e : idx_main_v11 (ix2 p q) = ix2 p (gate 2 q) := funext fun a => Fin.ext (by
    match a with
    | ⟨0, _⟩ => rfl
    | ⟨1, _⟩ => show _ = 1024 * (2 : Fin 4).val + q.val; simp)
  rw [val_main_v11_apply, e, pre_ref]

/-- Columns 3072 … 4095: the output gate's pre-activations. -/
theorem block3_ref (p : Fin 8192) (q : Fin 1024) :
    val_main_v12 (F := Ideal) x0 x1 x3 x4 x5 x6 x7 x8 x9 x10 x11 x12 x13 x14 (ix2 p q) = pre (rowOf x0 p) (rowOf x1 p) (mat (val_main_v0 (F := Ideal) x3 x6 x9 x12)) (mat (val_main_v1 (F := Ideal) x4 x7 x10 x13)) (vec (val_main_v2 (F := Ideal) x5 x8 x11 x14)) (gate 3 q) := by
  have e : idx_main_v12 (ix2 p q) = ix2 p (gate 3 q) := funext fun a => Fin.ext (by
    match a with
    | ⟨0, _⟩ => rfl
    | ⟨1, _⟩ => show _ = 1024 * (3 : Fin 4).val + q.val; simp)
  rw [val_main_v12_apply, e, pre_ref]

/-! ## The gates -/

/-- The input gate: the logistic function of block 0. -/
theorem input_ref (p : Fin 8192) (q : Fin 1024) :
    val_main_v18 (F := Ideal) x0 x1 x3 x4 x5 x6 x7 x8 x9 x10 x11 x12 x13 x14 (ix2 p q) = Ideal.logistic (pre (rowOf x0 p) (rowOf x1 p) (mat (val_main_v0 (F := Ideal) x3 x6 x9 x12)) (mat (val_main_v1 (F := Ideal) x4 x7 x10 x13)) (vec (val_main_v2 (F := Ideal) x5 x8 x11 x14)) (gate 0 q)) := by
  rw [val_main_v18_apply, val_main_v17_apply, val_main_cst_0_apply, val_main_v16_apply, val_main_v15_apply,
    val_main_cst_apply, val_main_v14_apply, val_main_v13_apply, block0_ref]
  exact logistic_spelled _

/-- The forget gate: the logistic function of block 1. -/
theorem forget_ref (p : Fin 8192) (q : Fin 1024) :
    val_main_v24 (F := Ideal) x0 x1 x3 x4 x5 x6 x7 x8 x9 x10 x11 x12 x13 x14 (ix2 p q) = Ideal.logistic (pre (rowOf x0 p) (rowOf x1 p) (mat (val_main_v0 (F := Ideal) x3 x6 x9 x12)) (mat (val_main_v1 (F := Ideal) x4 x7 x10 x13)) (vec (val_main_v2 (F := Ideal) x5 x8 x11 x14)) (gate 1 q)) := by
  rw [val_main_v24_apply, val_main_v23_apply, val_main_cst_2_apply, val_main_v22_apply, val_main_v21_apply,
    val_main_cst_1_apply, val_main_v20_apply, val_main_v19_apply, block1_ref]
  exact logistic_spelled _

/-- The output gate: the logistic function of block 3. -/
theorem output_ref (p : Fin 8192) (q : Fin 1024) :
    val_main_v34 (F := Ideal) x0 x1 x3 x4 x5 x6 x7 x8 x9 x10 x11 x12 x13 x14 (ix2 p q) = Ideal.logistic (pre (rowOf x0 p) (rowOf x1 p) (mat (val_main_v0 (F := Ideal) x3 x6 x9 x12)) (mat (val_main_v1 (F := Ideal) x4 x7 x10 x13)) (vec (val_main_v2 (F := Ideal) x5 x8 x11 x14)) (gate 3 q)) := by
  rw [val_main_v34_apply, val_main_v33_apply, val_main_cst_4_apply, val_main_v32_apply, val_main_v31_apply,
    val_main_cst_3_apply, val_main_v30_apply, val_main_v29_apply, block3_ref]
  exact logistic_spelled _

/-- The candidate: the hyperbolic tangent of block 2. -/
theorem cand_ref (p : Fin 8192) (q : Fin 1024) :
    val_main_v25 (F := Ideal) x0 x1 x3 x4 x5 x6 x7 x8 x9 x10 x11 x12 x13 x14 (ix2 p q) = Ideal.tanh (pre (rowOf x0 p) (rowOf x1 p) (mat (val_main_v0 (F := Ideal) x3 x6 x9 x12)) (mat (val_main_v1 (F := Ideal) x4 x7 x10 x13)) (vec (val_main_v2 (F := Ideal) x5 x8 x11 x14)) (gate 2 q)) := by
  rw [val_main_v25_apply, block2_ref]
  rfl

/-! ## The new cell state and the new hidden state, entry by entry -/

/-- Entry (p, q) of the new cell state: forget gate times the old cell state plus input gate times candidate. -/
theorem cell_at (p : Fin 8192) (q : Fin 1024) :
    val_main_v28 (F := Ideal) x0 x1 x2 x3 x4 x5 x6 x7 x8 x9 x10 x11 x12 x13 x14 (ix2 p q)
      = cellRow (rowOf x0 p) (rowOf x1 p) (rowOf x2 p) (mat (val_main_v0 (F := Ideal) x3 x6 x9 x12)) (mat (val_main_v1 (F := Ideal) x4 x7 x10 x13)) (vec (val_main_v2 (F := Ideal) x5 x8 x11 x14)) q := by
  rw [val_main_v28_apply, val_main_v26_apply, val_main_v27_apply, forget_ref, input_ref, cand_ref]
  rfl

/-- Entry (p, q) of the new hidden state: output gate times the hyperbolic tangent of the new cell state. -/
theorem hidden_at (p : Fin 8192) (q : Fin 1024) :
    val_main_v36 (F := Ideal) x0 x1 x2 x3 x4 x5 x6 x7 x8 x9 x10 x11 x12 x13 x14 (ix2 p q)
      = hiddenRow (rowOf x0 p) (rowOf x1 p) (rowOf x2 p) (mat (val_main_v0 (F := Ideal) x3 x6 x9 x12)) (mat (val_main_v1 (F := Ideal) x4 x7 x10 x13)) (vec (val_main_v2 (F := Ideal) x5 x8 x11 x14)) q := by
  rw [val_main_v36_apply, val_main_v35_apply, output_ref, cell_at]
  rfl

end Stages

/-! ## The two results as arrays of rows -/

/-- The reference's new cell state is the specification's cell row, row by row. -/
theorem cell_ref (x0 x1 x2 : (⟨S8192x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) :
    val_main_v28 (F := Ideal) x0 x1 x2 x3 x4 x5 x6 x7 x8 x9 x10 x11 x12 x13 x14
      = fun i => cellRow (rowOf x0 (i 0)) (rowOf x1 (i 0)) (rowOf x2 (i 0))
          (mat (val_main_v0 (F := Ideal) x3 x6 x9 x12)) (mat (val_main_v1 (F := Ideal) x4 x7 x10 x13))
          (vec (val_main_v2 (F := Ideal) x5 x8 x11 x14)) (i 1) := by
  funext i
  obtain ⟨p, q, rfl⟩ : ∃ (p : Fin 8192) (q : Fin 1024), i = ix2 p q := ⟨i 0, i 1, eq_ix2 i⟩
  exact cell_at x0 x1 x2 x3 x4 x5 x6 x7 x8 x9 x10 x11 x12 x13 x14 p q

/-- The reference's new hidden state is the specification's hidden row, row by row. -/
theorem hidden_ref (x0 x1 x2 : (⟨S8192x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) :
    val_main_v36 (F := Ideal) x0 x1 x2 x3 x4 x5 x6 x7 x8 x9 x10 x11 x12 x13 x14
      = fun i => hiddenRow (rowOf x0 (i 0)) (rowOf x1 (i 0)) (rowOf x2 (i 0))
          (mat (val_main_v0 (F := Ideal) x3 x6 x9 x12)) (mat (val_main_v1 (F := Ideal) x4 x7 x10 x13))
          (vec (val_main_v2 (F := Ideal) x5 x8 x11 x14)) (i 1) := by
  funext i
  obtain ⟨p, q, rfl⟩ : ∃ (p : Fin 8192) (q : Fin 1024), i = ix2 p q := ⟨i 0, i 1, eq_ix2 i⟩
  exact hidden_at x0 x1 x2 x3 x4 x5 x6 x7 x8 x9 x10 x11 x12 x13 x14 p q

end Cert.ReferenceIdeal.Stages

end
-- ==== Proof.lean ====
/-
  An LSTM cell step on a batch of 8192 rows: a kernel that fuses the four gates' weights into two bf16
  matrices and walks the batch in 64 blocks of 128 rows, against the plain formulation
  z = x·Wx + h·Uh + b,  c' = σ(z_f)·c + σ(z_i)·tanh(z_g),  h' = σ(z_o)·tanh(c').

  The three frames: each of the two kernel programs runs its six host operations and then its one region to the
  end with the fifteen arguments untouched (the same argument read at the program as printed and at the idealized
  one); the reference is a straight line of host operations. The idealization rewrote nothing. Over the extended
  reals a change of float format is the identity, a matrix product into a zero accumulator and the host's are
  one sum, and the kernel's logistic is by definition the reference's 1 / (1 + exp (−z)); so row by row both
  programs compute the same two functions of arguments that agree — the kernel block by block over the rows
  128·t … 128·t + 127, the reference on the whole batch at once — and no finiteness of the inputs is used.
-/
import proofs.«141463_j6820408066632_1_alg».proof.Defs
import proofs.«141463_j6820408066632_1_alg».proof.Proof.Kernel.Frame
import proofs.«141463_j6820408066632_1_alg».proof.Proof.KernelIdeal.Arrays
import proofs.«141463_j6820408066632_1_alg».proof.Proof.Reference.Stages
import proofs.«141463_j6820408066632_1_alg».proof.Proof.Gen.Kernel
import proofs.«141463_j6820408066632_1_alg».proof.Proof.Gen.KernelIdeal
import proofs.«141463_j6820408066632_1_alg».proof.Proof.Gen.ReferenceIdeal
import proofs.«141463_j6820408066632_1_alg».proof.Proof.Gen.Pre_finite_inputs
import Idealize.ShloMosaic.Adequacy
import Idealize.ShloMosaic.Init

noncomputable section

namespace Cert.Proof

open Idealize.ShloMosaic Idealize.SL.Sem

/-- The program as printed leaves its arguments unchanged. -/
theorem frame_kernel : Cert.frame_Kernel := fun m ρ _ => Cert.Kernel.Rgn.frame m ρ

/-- So does its idealization. -/
theorem frame_kernelIdeal : Cert.frame_KernelIdeal := fun m ρ _ => Cert.KernelIdeal.Rgn.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs end at the batch's new hidden state and new cell state, the row formulas of the LSTM cell over the
    arguments: the kernel by its 64 blocks, the reference by its operations read one at a time. -/
theorem algebraic : Cert.algebraic_KernelIdeal_ReferenceIdeal := by
  intro m ρ m' ρ' _ hagree
  refine ⟨fun c => Cert.KernelIdeal.Rgn.hiddenAll m c, fun c => Cert.KernelIdeal.Rgn.cellAll m c,
    Cert.KernelIdeal.Rgn.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v36_eq, Cert.ReferenceIdeal.Stages.hidden_ref, a0, a1, a2, a3, a4, a5, a6, a7, a8, a9, a10, a11, a12, a13, a14]
    rfl
  · obtain ⟨a0, a1, a2, a3, a4, a5, a6, a7, a8, a9, a10, a11, a12, a13, a14⟩ := hagree c
    rw [Cert.ReferenceIdeal.Read.val_main_v28_eq, Cert.ReferenceIdeal.Stages.cell_ref, a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
